-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) (main_arg3 : IVec S4096x4096 32) (main_arg4 : IVec S4096x4096 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S512x512 : Shape := ⟨2, ![512, 512]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 8
  | .vmem => 17
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .i32⟩
  | .hbm, ⟨4, _⟩ => ⟨S4096x4096, .i32⟩
  | .hbm, ⟨5, _⟩ => ⟨S4096x4096, .bf16⟩
  | .hbm, ⟨6, _⟩ => ⟨S1x4096, .f32⟩
  | .hbm, ⟨7, _⟩ => ⟨S8192x4096, .f32⟩
  | .local _ .vmem, ⟨0, _⟩ => ⟨S512x512, .f32⟩
  | .local _ .vmem, ⟨1, _⟩ => ⟨S512x512, .f32⟩
  | .local _ .vmem, ⟨2, _⟩ => ⟨S512x512, .i32⟩
  | .local _ .vmem, ⟨3, _⟩ => ⟨S512x512, .i32⟩
  | .local _ .vmem, ⟨4, _⟩ => ⟨S512x512, .i32⟩
  | .local _ .vmem, ⟨5, _⟩ => ⟨S512x512, .i32⟩
  | .local _ .vmem, ⟨6, _⟩ => ⟨S512x512, .bf16⟩
  | .local _ .vmem, ⟨7, _⟩ => ⟨S512x512, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  packedbf16_S512x512_S512x512_0_0 : (Rect.unit (s := S512x512) ![0, 0] S512x512.size inb_S512x512_S512x512_0_0).PackedRows (EltTy.packing .bf16)
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x4096.size a
  hwx0_0 : ∀ i : grid0.Coords, EltTy.bits .f32 = 32 ∨ (Rect.block (s := S4096x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x4096.size a
  hwx0_1 : ∀ i : grid0.Coords, EltTy.bits .i32 = 32 ∨ (Rect.block (s := S4096x4096) S512x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .i32 = 32 ∨ (Rect.block (s := S4096x4096) S512x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x4096.size a
  hwx0_3 : ∀ i : grid0.Coords, EltTy.bits .bf16 = 32 ∨ (Rect.block (s := S4096x4096) S512x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .f32 = 32 ∨ (Rect.block (s := S8192x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x4096.size a
  hwx1_3 : ∀ i : grid1.Coords, EltTy.bits .f32 = 32 ∨ (Rect.block (s := S8192x4096) S1024x1024.size (cc1_transform_3 i) (hinb1_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg1) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .i32⟩
  | .hbm, ⟨4, _⟩ => ⟨S4096x4096, .i32⟩
  | .hbm, ⟨5, _⟩ => ⟨S4096x4096, .f32⟩
  | .hbm, ⟨6, _⟩ => ⟨S4096x4096, .f32⟩
  | .hbm, ⟨7, _⟩ => ⟨S_, .i32⟩
  | .hbm, ⟨8, _⟩ => ⟨S4096x4096, .i32⟩
  | .hbm, ⟨9, _⟩ => ⟨S4096x4096, .i1⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S8192x4096, .f32⟩
  | .hbm, ⟨19, _⟩ => ⟨S1x4096, .f32⟩
  | .hbm, ⟨20, _⟩ => ⟨S8192x4096, .f32⟩
  | .hbm, ⟨21, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.BitsMaskRegion.lean ====
/-
  The first launch: the masked, sign-constrained weight matrix. Its grid is 8 x 8 and every window's block at
  point (i, j) is the 512 x 512 tile (i, j) of its array. The body multiplies the weight tile by the sparsity tile
  read as numbers, keeps the non-negative part where the sign tile is 1 and the non-positive part elsewhere, and
  stores the tile. Everything here is stated at a parameter `V`, the contents of the core's buffers when the
  launch is entered.
-/
import proofs.«171092_j23046794510859_1_alg».proof.Proof.Gen.Kernel.Launch
import proofs.«171092_j23046794510859_1_alg».proof.Proof.Gen.Kernel.Skeleton
import proofs.«171092_j23046794510859_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' tiles -/

/-- Window `w`'s tile at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its tile at every point, for any proof data whose array is
    `V`'s and whose body leaves the tile in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output tile -/

abbrev r0_0 : Rect S512x512 := Rect.unit (s := S512x512) ![0, 0] S512x512.size inb_S512x512_S512x512_0_0

/-- The output tile after the body, from the three input tiles (weight `x0`, sign `x1`, sparsity `x2`): its one
    store, of the body's arithmetic on the tiles. -/
def out0_3 (x0 : Vec F S512x512 .f32) (x1 : Vec F S512x512 .i32) (x2 : Vec F S512x512 .i32) : Vec F S512x512 .bf16 :=
  View.canon [⟨r0_0, k0_pay1 (View.ld x0 r0_0) (View.ld x2 r0_0) (View.ld x1 r0_0)⟩]

/-- The one store covers the tile. -/
theorem cover0_3 (p0 : Vec F S512x512 .bf16) (y : S512x512.Idx) :
    ∃ pc ∈ ([⟨r0_0, p0⟩] : List (View.Piece (Elt F) S512x512 .bf16)), y ∈ pc.1.set :=
  View.cover_of_tiled [⟨r0_0, p0⟩] S512x512.size (by rfl) y

/-! ## The body's triple -/

set_option maxHeartbeats 1000000 in
/-- On whole staging memrefs, the inputs' at their contents and the output's at anything, the body runs to the
    continuation holding the inputs' as they were and the output's at `out0_3` of the inputs'. -/
theorem sound_kernel0 (c : Dev nD) (E : Set ℕ) (i : grid0.Coords) (arg2 : Memref sig .tc .vmem S512x512 .f32) (harg2 : arg2.IsWhole) (arg3 : Memref sig .tc .vmem S512x512 .i32) (harg3 : arg3.IsWhole) (arg4 : Memref sig .tc .vmem S512x512 .i32) (harg4 : arg4.IsWhole) (arg5 : Memref sig .tc .vmem S512x512 .bf16) (harg5 : arg5.IsWhole)
    (x0 : Vec F S512x512 .f32) (x1 : Vec F S512x512 .i32) (x2 : Vec F S512x512 .i32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__mask_kernel i arg2 harg2 arg3 harg3 arg4 harg4 arg5 harg5) K := by
  simp only [cc0__mask_kernel_eq_skeleton]; unfold cc0__mask_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The launch's proof data -/

/-- The arrays as the launch finds them; after the body at point `t` each input's buffer at its tile and the output's
    at `out0_3` of the input tiles; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their tiles, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsMatRuns.lean ====
/-
  The second launch: the product of the activations with the masked weights, accumulated over four blocks of
  the contracted axis. Its grid is 8 x 4 x 4; the innermost coordinate k walks the contraction blocks. The
  body clears its accumulator where k = 0, adds one block product at every point, and where k = 3 adds the bias
  row and emits the output block. This module fixes what the three kinds of grid point (k = 0; k = 1, 2; k = 3)
  are stated over: the two branch conditions in closed form over the linear point number, where the output
  window is idle, the staging and accumulator memrefs, and the region invariant's resting form.
-/
import proofs.«171092_j23046794510859_1_alg».proof.Proof.Gen.Kernel.Launch
import proofs.«171092_j23046794510859_1_alg».proof.Proof.Gen.Kernel.Skeleton
import proofs.«171092_j23046794510859_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- The accumulator is cleared: the innermost grid coordinate is 0. -/
abbrev cond1_0 (i : grid1.Coords) : Prop := (Scalar.cmpi .ne (Scalar.extui (Scalar.cmpi .eq (BitVec.ofNat 32 (i 2).val) 0#32)) 0#32) = 1#1
/-- In the row-major numbering of the 8 x 4 x 4 grid these are the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The output block is emitted: the innermost grid coordinate is 3. -/
abbrev cond1_1 (i : grid1.Coords) : Prop := k1_cond2 i = 1#1
/-- These are the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where k = 0 nothing is stored into the output block, and it is not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- The same where k = 1, 2. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- Where k = 3 the output block is stored. -/
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated. -/
abbrev VO1_3 : View sig .tc .vmem S1024x1024 .f32 := (Memref.whole cc1_stg3_0 : Memref sig .tc .vmem S1024x1024 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S1024x1024 .f32 := Memref.whole cc1_scratch0
abbrev VS1_0 : View sig .tc .vmem S1024x1024 .f32 := scM1_0.view

/-! ## The scoped buffers beside the accumulator -/

/-- The class invariant of a launch whose kernel keeps nothing between points, spelt with the accumulator as a memref
    owned at some contents: what the body is handed at the first point and what the region gives back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Hand

end
-- ==== Proof.BitsMatRunA.lean ====
/-
  The body at a point with k = 0: the accumulator, whatever it held, is cleared and then receives the first block
  product; the output block is left as it was found.
-/
import proofs.«171092_j23046794510859_1_alg».proof.Proof.BitsMatRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the stores leave in the accumulator where k = 0, with the run that finds them: the inputs' staging
    buffers are handed back as found, the output's too (nothing is stored there), the accumulator with the pieces written. -/
noncomputable def kernelRun1_A (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.BitsMatRunB.lean ====
/-
  The body at a point with k = 1 or 2: one more block product is added to what the accumulator held; the output
  block is left as it was found.
-/
import proofs.«171092_j23046794510859_1_alg».proof.Proof.BitsMatRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the store leaves in the accumulator where k = 1, 2, over the contents `xs0` the point before left,
    with the run that finds them. -/
noncomputable def kernelRun1_B (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.BitsMatRunC.lean ====
/-
  The body at a point with k = 3: the last block product is added to the accumulator, and the accumulator plus
  the bias row, laid along every row, is stored as the output block.
-/
import proofs.«171092_j23046794510859_1_alg».proof.Proof.BitsMatRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the stores leave in the output block and in the accumulator where k = 3, over the contents `xs0`
    the point before left, with the run that finds them. -/
noncomputable def kernelRun1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.BitsMatRegion.lean ====
/-
  The second launch at a parameter `V`, the contents of the core's buffers when it is entered: what the output
  block's staging buffer and the accumulator hold after each grid point, as a recursion over the linear point
  number (a point with k = 0 starts from nothing, the others from what the point before left in the accumulator),
  the launch's proof data over it, and the body's obligation at every point.
-/
import proofs.«171092_j23046794510859_1_alg».proof.Proof.BitsMatRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not (where it is not
    fetched the block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves, by the kind of point -/

/-- Where k = 0 nothing is stored into the output block: a placeholder nothing consults (the window is idle there and
    not written back). -/
def out1_A_3 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) (x2 : Vec F S1x1024 .f32) : Vec F S1024x1024 .f32 :=
  VO1_3.read (Elt F) (VO1_3.writes (Elt F) VO1_3.junk (kernelRun1_A c i arg3 harg3 arg4 harg4 arg5 harg5 arg6 harg6 arg7 harg7 hc0 hc1 x0 x1 x2).1)

/-- The pieces stored into the accumulator cover it. -/
theorem scover1_A_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) (x2 : Vec F S1x1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y

/-- What the body leaves in the accumulator: its pieces read back. -/
def sout1_A_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) (x2 : Vec F S1x1024 .f32) : Vec F S1024x1024 .f32 :=
  VS1_0.read (Elt F) (VS1_0.writes (Elt F) VS1_0.junk (kernelRun1_A c i arg3 harg3 arg4 harg4 arg5 harg5 arg6 harg6 arg7 harg7 hc0 hc1 x0 x1 x2).2.1)

/-- Where k = 1, 2 nothing is stored into the output block: a placeholder nothing consults (the window is idle there and
    not written back). -/
def out1_B_3 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (x2 : Vec F S1x1024 .f32) (xs0 : Vec F S1024x1024 .f32) : Vec F S1024x1024 .f32 :=
  VO1_3.read (Elt F) (VO1_3.writes (Elt F) VO1_3.junk (kernelRun1_B c i arg3 harg3 arg4 harg4 arg5 harg5 arg6 harg6 arg7 harg7 hc0 hc1 x0 x1 x2 xs0).1)

/-- The pieces stored into the accumulator cover it. -/
theorem scover1_B_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (x2 : Vec F S1x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y

/-- What the body leaves in the accumulator: its pieces read back. -/
def sout1_B_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (x2 : Vec F S1x1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- Where k = 3 the pieces stored into the output block cover it. -/
theorem cover1_C_3 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x1024.size (by sl_kernel_rfl) y

/-- What the body leaves in the output block where k = 3: its pieces read back. -/
def out1_C_3 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1x1024 .f32) (xs0 : Vec F S1024x1024 .f32) : Vec F S1024x1024 .f32 :=
  VO1_3.read (Elt F) (VO1_3.writes (Elt F) VO1_3.junk (kernelRun1_C c i arg3 harg3 arg4 harg4 arg5 harg5 arg6 harg6 arg7 harg7 hc0 hc1 x0 x1 x2 xs0).1)

/-- The pieces stored into the accumulator cover it. -/
theorem scover1_C_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x1024.size (by sl_kernel_rfl) y

/-- What the body leaves in the accumulator: its pieces read back. -/
def sout1_C_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1x1024 .f32) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 hc0 hc1 x0 x1 x2 xs0).2.1)

/-! ## What the buffers hold after each point -/

/-- After the body at linear point `n`: the output block's staging buffer and the accumulator. The kind of point is
    read off `n` modulo 4 (the innermost grid coordinate); a point with k = 0 starts from any accumulator, the others from
    what point `n - 1` left in it. -/
def outsAt1 (c : Dev nD) : (n : ℕ) → n < cfg1.N → Vec F S1024x1024 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- At a point with k = 0. -/
theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- At a point with k = 1, 2: over what the point before left in the accumulator. -/
theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with k = 3: over what the point before left in the accumulator. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before linear position `n`: before the first point every scoped buffer no window stages at anything and the
    generator register at some state; afterwards the same with the accumulator at what the point before left in it. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The launch's proof data -/

/-- The arrays as the launch finds them; after the body at point `t` each input's buffer at its block and the output's at
    `outsAt1`'s first component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the point's number modulo 4 says which kind it is;
    the invariant hands the body the accumulator at what the point before left (at anything at the first point) and takes it
    back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · by_cases h1 : t.val % 4 = 3
    · exfalso; omega
    · rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      ·
        rw [PhiS_castSucc V c t, PhiS_zero V c _ _ hz, PhiA1_eq]
        iintro ⟨⟨⟨Ha, Hb, Hc, Hd, He, Hf, Hg8, Hh, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Ha Hb Hc Hd He Hf Hg8 Hh HS0 Hg]
        · isplitr [Hg]
          · isplitl [Ha]; · iexact Ha
            isplitl [Hb]; · iexact Hb
            isplitl [Hc]; · iexact Hc
            isplitl [Hd]; · iexact Hd
            isplitl [He]; · iexact He
            isplitl [Hf]; · iexact Hf
            isplitl [Hg8]; · iexact Hg8
            isplitl [Hh]; · iexact Hh
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      ·
        rw [PhiS_castSucc V c t, PhiS_pos V c _ _ hz]
        iintro ⟨⟨⟨Ha, Hb, Hc, Hd, He, Hf, Hg8, Hh, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [Ha Hb Hc Hd He Hf Hg8 Hh HS0 Hg]
        · isplitr [Hg]
          · isplitl [Ha]; · iexact Ha
            isplitl [Hb]; · iexact Hb
            isplitl [Hc]; · iexact Hc
            isplitl [Hd]; · iexact Hd
            isplitl [He]; · iexact He
            isplitl [Hf]; · iexact Hf
            isplitl [Hg8]; · iexact Hg8
            isplitl [Hh]; · iexact Hh
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 4 = 3
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      by_cases hz : t.val = 0
      · exfalso; omega
      ·
        rw [PhiS_castSucc V c t, PhiS_pos V c _ _ hz]
        iintro ⟨⟨⟨Ha, Hb, Hc, Hd, He, Hf, Hg8, Hh, HS0⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [Ha Hb Hc Hd He Hf Hg8 Hh HS0 Hg]
        · isplitr [Hg]
          · isplitl [Ha]; · iexact Ha
            isplitl [Hb]; · iexact Hb
            isplitl [Hc]; · iexact Hc
            isplitl [Hd]; · iexact Hd
            isplitl [He]; · iexact He
            isplitl [Hf]; · iexact Hf
            isplitl [Hg8]; · iexact Hg8
            isplitl [Hh]; · iexact Hh
            unfold owns; iexists _; isplitr
            swap; · iexact HS0
            ipureintro; exact View.read_writes_of_cover _ _ _ _ _ (scover1_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      by_cases hz : t.val = 0
      · exfalso; omega
      ·
        rw [PhiS_castSucc V c t, PhiS_pos V c _ _ hz]
        iintro ⟨⟨⟨Ha, Hb, Hc, Hd, He, Hf, Hg8, Hh, HS0⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Ha Hb Hc Hd He Hf Hg8 Hh HS0 Hg]
        · isplitr [Hg]
          · isplitl [Ha]; · iexact Ha
            isplitl [Hb]; · iexact Hb
            isplitl [Hc]; · iexact Hc
            isplitl [Hd]; · iexact Hd
            isplitl [He]; · iexact He
            isplitl [Hf]; · iexact Hf
            isplitl [Hg8]; · iexact Hg8
            isplitl [Hh]; · iexact Hh
            unfold owns; iexists _; isplitr
            swap; · iexact HS0
            ipureintro; exact View.read_writes_of_cover _ _ _ _ _ (scover1_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the resting form back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨Ha, Hb, Hc, Hd, He, Hf, Hg8, Hh, HS0⟩, Hg⟩
  isplitr [Hg]
  · isplitl [Ha]; · iexact Ha
    isplitl [Hb]; · iexact Hb
    isplitl [Hc]; · iexact Hc
    isplitl [Hd]; · iexact Hd
    isplitl [He]; · iexact He
    isplitl [Hf]; · iexact Hf
    isplitl [Hg8]; · iexact Hg8
    isplitl [Hh]; · iexact Hh
    iexists _; iexact HS0
  iexact Hg

theorem hout1 (c : Dev nD) : (dat1 V c).Φ (Fin.last cfg1.N) ⊢ Pipeline.ΦA spec1 c :=
  Phi_out1 V c _ (by rw [Fin.val_last]; have : cfg1.N = 128 := N_1; omega)

end Cert.Kernel.Hand

end
-- ==== Proof.BitsMainRun.lean ====
/-
  The whole program: the first launch, the reshape of the bias into a row, the second launch. The contents of the
  core's buffers are followed through the three items as a fold from the launch memory: a launch leaves its arrays
  at what its write-backs fold to and everything else untouched; the reshape writes only the bias row. No item
  writes an argument array, so each ends as launched, and the result array ends at what the second launch's
  write-backs leave in it.
-/
import proofs.«171092_j23046794510859_1_alg».proof.Proof.BitsMaskRegion
import proofs.«171092_j23046794510859_1_alg».proof.Proof.BitsMatRegion

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- Core `c`'s buffers at launch, which is the first launch's entry. -/
abbrev W0 : Dev nD → Valuation τ sig (Elt F) := fun c b => m ((c : Dev nD), b)
abbrev V1 : (c : Dev nD) → (b : Ref sig .tc) → Buf (Elt F) ((c : Thread nD τ).loc b) := fun c b => W0 m c b
/-- After the first launch: its arrays at what the pipeline leaves, every other buffer as entered. -/
def W2 (c : Dev nD) : Valuation τ sig (Elt F) :=
  Pipeline.withArrays spec0 c (W0 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the reshape: the second launch's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second launch. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := (W4_arr m c 0).trans (((dat1 (V3 m) c).arrAt_in 0 rfl _).trans (A_eq1 (V3 m) c 0))
    _ = W2 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W0 m c (Proc.devRef .tc main_arg0) := W2_of_ne m c main_arg0 (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W0 m c (Proc.devRef .tc main_arg1) := (W2_arr m c 0).trans (((dat0 (V1 m) c).arrAt_in 0 rfl _).trans (A_eq0 (V1 m) c 0))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W0 m c (Proc.devRef .tc main_arg2) := W2_of_ne m c main_arg2 (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W0 m c (Proc.devRef .tc main_arg3) := (W2_arr m c 1).trans (((dat0 (V1 m) c).arrAt_in 1 rfl _).trans (A_eq0 (V1 m) c 1))
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W0 m c (Proc.devRef .tc main_arg4) := (W2_arr m c 2).trans (((dat0 (V1 m) c).arrAt_in 2 rfl _).trans (A_eq0 (V1 m) c 2))
    _ = m ((c : Thread nD τ).loc main_arg4) := rfl

/-- The result array ends at what the second launch's write-backs leave in it. -/
theorem W4_main_v2 (c : Dev nD) : W4 m c (Proc.devRef .tc main_v2) = (dat1 (V3 m) c).arrAt 3 cfg1.N := W4_arr m c 3

/-! ## The proof data family and the thread state -/

abbrev adm : (p : Fin 2) → (pcfgs (F := F) p).Adm := fun p => (cfgs p).toPCfg_adm
/-- Each launch's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The launches as segments -/

set_option backward.isDefEq.respectTransparency.types false in
/-- Launch 0 over the thread state: entered from every unscoped buffer at the contents before it, left at the contents
    after it. Its arrays are split out of the unscoped buffers and put back at the exit contents; the generator register
    enters the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at the contents before it, left at the contents
    after it. Its arrays are split out of the unscoped buffers and put back at the exit contents; the generator register
    enters the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h1 : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (show (pdats m 1 c).Φ (Fin.last _) ⊢ Pipeline.ΦA spec1 c from hout1 (V3 m) c).trans h1
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m) () defs₀ 𝒱₀ L lv) :=
  [ .region (reg0 m),
    .host (hseg hostOps1 hostOps1_sub hostOps1_fresh' (W2 m)),
    .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting, and in
    every final state each unscoped buffer of each core holds the last fold's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.Kernel.Hand

end
-- ==== Proof.MaskRegion.lean ====
/-
  The first launch: the masked, sign-constrained weight matrix. Its grid is 8 x 8 and every window's block at
  point (i, j) is the 512 x 512 tile (i, j) of its array. The body multiplies the weight tile by the sparsity tile
  read as numbers, keeps the non-negative part where the sign tile is 1 and the non-positive part elsewhere, and
  stores the tile. Everything here is stated at a parameter `V`, the contents of the core's buffers when the
  launch is entered.
-/
import proofs.«171092_j23046794510859_1_alg».proof.Proof.Gen.KernelIdeal.Launch
import proofs.«171092_j23046794510859_1_alg».proof.Proof.Gen.KernelIdeal.Skeleton
import proofs.«171092_j23046794510859_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' tiles -/

/-- Window `w`'s tile at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its tile at every point, for any proof data whose array is
    `V`'s and whose body leaves the tile in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output tile -/

abbrev r0_0 : Rect S512x512 := Rect.unit (s := S512x512) ![0, 0] S512x512.size inb_S512x512_S512x512_0_0

/-- The output tile after the body, from the three input tiles (weight `x0`, sign `x1`, sparsity `x2`): its one
    store, of the body's arithmetic on the tiles. -/
def out0_3 (x0 : Vec F S512x512 .f32) (x1 : Vec F S512x512 .i32) (x2 : Vec F S512x512 .i32) : Vec F S512x512 .bf16 :=
  View.canon [⟨r0_0, k0_pay1 (View.ld x0 r0_0) (View.ld x2 r0_0) (View.ld x1 r0_0)⟩]

/-- The one store covers the tile. -/
theorem cover0_3 (p0 : Vec F S512x512 .bf16) (y : S512x512.Idx) :
    ∃ pc ∈ ([⟨r0_0, p0⟩] : List (View.Piece (Elt F) S512x512 .bf16)), y ∈ pc.1.set :=
  View.cover_of_tiled [⟨r0_0, p0⟩] S512x512.size (by rfl) y

/-! ## The body's triple -/

set_option maxHeartbeats 1000000 in
/-- On whole staging memrefs, the inputs' at their contents and the output's at anything, the body runs to the
    continuation holding the inputs' as they were and the output's at `out0_3` of the inputs'. -/
theorem sound_kernel0 (c : Dev nD) (E : Set ℕ) (i : grid0.Coords) (arg2 : Memref sig .tc .vmem S512x512 .f32) (harg2 : arg2.IsWhole) (arg3 : Memref sig .tc .vmem S512x512 .i32) (harg3 : arg3.IsWhole) (arg4 : Memref sig .tc .vmem S512x512 .i32) (harg4 : arg4.IsWhole) (arg5 : Memref sig .tc .vmem S512x512 .bf16) (harg5 : arg5.IsWhole)
    (x0 : Vec F S512x512 .f32) (x1 : Vec F S512x512 .i32) (x2 : Vec F S512x512 .i32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__mask_kernel i arg2 harg2 arg3 harg3 arg4 harg4 arg5 harg5) K := by
  simp only [cc0__mask_kernel_eq_skeleton]; unfold cc0__mask_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The launch's proof data -/

/-- The arrays as the launch finds them; after the body at point `t` each input's buffer at its tile and the output's
    at `out0_3` of the input tiles; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their tiles, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.MatRuns.lean ====
/-
  The second launch: the product of the activations with the masked weights, accumulated over four blocks of
  the contracted axis. Its grid is 8 x 4 x 4; the innermost coordinate k walks the contraction blocks. The
  body clears its accumulator where k = 0, adds one block product at every point, and where k = 3 adds the bias
  row and emits the output block. This module fixes what the three kinds of grid point (k = 0; k = 1, 2; k = 3)
  are stated over: the two branch conditions in closed form over the linear point number, where the output
  window is idle, the staging and accumulator memrefs, and the region invariant's resting form.
-/
import proofs.«171092_j23046794510859_1_alg».proof.Proof.Gen.KernelIdeal.Launch
import proofs.«171092_j23046794510859_1_alg».proof.Proof.Gen.KernelIdeal.Skeleton
import proofs.«171092_j23046794510859_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- The accumulator is cleared: the innermost grid coordinate is 0. -/
abbrev cond1_0 (i : grid1.Coords) : Prop := (Scalar.cmpi .ne (Scalar.extui (Scalar.cmpi .eq (BitVec.ofNat 32 (i 2).val) 0#32)) 0#32) = 1#1
/-- In the row-major numbering of the 8 x 4 x 4 grid these are the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The output block is emitted: the innermost grid coordinate is 3. -/
abbrev cond1_1 (i : grid1.Coords) : Prop := k1_cond2 i = 1#1
/-- These are the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where k = 0 nothing is stored into the output block, and it is not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- The same where k = 1, 2. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- Where k = 3 the output block is stored. -/
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated. -/
abbrev VO1_3 : View sig .tc .vmem S1024x1024 .f32 := (Memref.whole cc1_stg3_0 : Memref sig .tc .vmem S1024x1024 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S1024x1024 .f32 := Memref.whole cc1_scratch0
abbrev VS1_0 : View sig .tc .vmem S1024x1024 .f32 := scM1_0.view

/-! ## The scoped buffers beside the accumulator -/

/-- The class invariant of a launch whose kernel keeps nothing between points, spelt with the accumulator as a memref
    owned at some contents: what the body is handed at the first point and what the region gives back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.MatRunA.lean ====
/-
  The body at a point with k = 0: the accumulator, whatever it held, is cleared and then receives the first block
  product; the output block is left as it was found.
-/
import proofs.«171092_j23046794510859_1_alg».proof.Proof.MatRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the stores leave in the accumulator where k = 0, with the run that finds them: the inputs' staging
    buffers are handed back as found, the output's too (nothing is stored there), the accumulator with the pieces written. -/
noncomputable def kernelRun1_A (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.MatRunB.lean ====
/-
  The body at a point with k = 1 or 2: one more block product is added to what the accumulator held; the output
  block is left as it was found.
-/
import proofs.«171092_j23046794510859_1_alg».proof.Proof.MatRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the store leaves in the accumulator where k = 1, 2, over the contents `xs0` the point before left,
    with the run that finds them. -/
noncomputable def kernelRun1_B (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.MatRunC.lean ====
/-
  The body at a point with k = 3: the last block product is added to the accumulator, and the accumulator plus
  the bias row, laid along every row, is stored as the output block.
-/
import proofs.«171092_j23046794510859_1_alg».proof.Proof.MatRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the stores leave in the output block and in the accumulator where k = 3, over the contents `xs0`
    the point before left, with the run that finds them. -/
noncomputable def kernelRun1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.MatRegion.lean ====
/-
  The second launch at a parameter `V`, the contents of the core's buffers when it is entered: what the output
  block's staging buffer and the accumulator hold after each grid point, as a recursion over the linear point
  number (a point with k = 0 starts from nothing, the others from what the point before left in the accumulator),
  the launch's proof data over it, and the body's obligation at every point.
-/
import proofs.«171092_j23046794510859_1_alg».proof.Proof.MatRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not (where it is not
    fetched the block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves, by the kind of point -/

/-- Where k = 0 nothing is stored into the output block: a placeholder nothing consults (the window is idle there and
    not written back). -/
def out1_A_3 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) (x2 : Vec F S1x1024 .f32) : Vec F S1024x1024 .f32 :=
  VO1_3.read (Elt F) (VO1_3.writes (Elt F) VO1_3.junk (kernelRun1_A c i arg3 harg3 arg4 harg4 arg5 harg5 arg6 harg6 arg7 harg7 hc0 hc1 x0 x1 x2).1)

/-- The pieces stored into the accumulator cover it. -/
theorem scover1_A_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) (x2 : Vec F S1x1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y

/-- What the body leaves in the accumulator: its pieces read back. -/
def sout1_A_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) (x2 : Vec F S1x1024 .f32) : Vec F S1024x1024 .f32 :=
  VS1_0.read (Elt F) (VS1_0.writes (Elt F) VS1_0.junk (kernelRun1_A c i arg3 harg3 arg4 harg4 arg5 harg5 arg6 harg6 arg7 harg7 hc0 hc1 x0 x1 x2).2.1)

/-- Where k = 1, 2 nothing is stored into the output block: a placeholder nothing consults (the window is idle there and
    not written back). -/
def out1_B_3 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (x2 : Vec F S1x1024 .f32) (xs0 : Vec F S1024x1024 .f32) : Vec F S1024x1024 .f32 :=
  VO1_3.read (Elt F) (VO1_3.writes (Elt F) VO1_3.junk (kernelRun1_B c i arg3 harg3 arg4 harg4 arg5 harg5 arg6 harg6 arg7 harg7 hc0 hc1 x0 x1 x2 xs0).1)

/-- The pieces stored into the accumulator cover it. -/
theorem scover1_B_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (x2 : Vec F S1x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y

/-- What the body leaves in the accumulator: its pieces read back. -/
def sout1_B_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (x2 : Vec F S1x1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- Where k = 3 the pieces stored into the output block cover it. -/
theorem cover1_C_3 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x1024.size (by sl_kernel_rfl) y

/-- What the body leaves in the output block where k = 3: its pieces read back. -/
def out1_C_3 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1x1024 .f32) (xs0 : Vec F S1024x1024 .f32) : Vec F S1024x1024 .f32 :=
  VO1_3.read (Elt F) (VO1_3.writes (Elt F) VO1_3.junk (kernelRun1_C c i arg3 harg3 arg4 harg4 arg5 harg5 arg6 harg6 arg7 harg7 hc0 hc1 x0 x1 x2 xs0).1)

/-- The pieces stored into the accumulator cover it. -/
theorem scover1_C_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x1024.size (by sl_kernel_rfl) y

/-- What the body leaves in the accumulator: its pieces read back. -/
def sout1_C_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1x1024 .f32) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 hc0 hc1 x0 x1 x2 xs0).2.1)

/-! ## What the buffers hold after each point -/

/-- After the body at linear point `n`: the output block's staging buffer and the accumulator. The kind of point is
    read off `n` modulo 4 (the innermost grid coordinate); a point with k = 0 starts from any accumulator, the others from
    what point `n - 1` left in it. -/
def outsAt1 (c : Dev nD) : (n : ℕ) → n < cfg1.N → Vec F S1024x1024 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- At a point with k = 0. -/
theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- At a point with k = 1, 2: over what the point before left in the accumulator. -/
theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with k = 3: over what the point before left in the accumulator. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before linear position `n`: before the first point every scoped buffer no window stages at anything and the
    generator register at some state; afterwards the same with the accumulator at what the point before left in it. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The launch's proof data -/

/-- The arrays as the launch finds them; after the body at point `t` each input's buffer at its block and the output's at
    `outsAt1`'s first component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the point's number modulo 4 says which kind it is;
    the invariant hands the body the accumulator at what the point before left (at anything at the first point) and takes it
    back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · by_cases h1 : t.val % 4 = 3
    · exfalso; omega
    · rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      ·
        rw [PhiS_castSucc V c t, PhiS_zero V c _ _ hz, PhiA1_eq]
        iintro ⟨⟨⟨Ha, Hb, Hc, Hd, He, Hf, Hg8, Hh, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Ha Hb Hc Hd He Hf Hg8 Hh HS0 Hg]
        · isplitr [Hg]
          · isplitl [Ha]; · iexact Ha
            isplitl [Hb]; · iexact Hb
            isplitl [Hc]; · iexact Hc
            isplitl [Hd]; · iexact Hd
            isplitl [He]; · iexact He
            isplitl [Hf]; · iexact Hf
            isplitl [Hg8]; · iexact Hg8
            isplitl [Hh]; · iexact Hh
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      ·
        rw [PhiS_castSucc V c t, PhiS_pos V c _ _ hz]
        iintro ⟨⟨⟨Ha, Hb, Hc, Hd, He, Hf, Hg8, Hh, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [Ha Hb Hc Hd He Hf Hg8 Hh HS0 Hg]
        · isplitr [Hg]
          · isplitl [Ha]; · iexact Ha
            isplitl [Hb]; · iexact Hb
            isplitl [Hc]; · iexact Hc
            isplitl [Hd]; · iexact Hd
            isplitl [He]; · iexact He
            isplitl [Hf]; · iexact Hf
            isplitl [Hg8]; · iexact Hg8
            isplitl [Hh]; · iexact Hh
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 4 = 3
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      by_cases hz : t.val = 0
      · exfalso; omega
      ·
        rw [PhiS_castSucc V c t, PhiS_pos V c _ _ hz]
        iintro ⟨⟨⟨Ha, Hb, Hc, Hd, He, Hf, Hg8, Hh, HS0⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [Ha Hb Hc Hd He Hf Hg8 Hh HS0 Hg]
        · isplitr [Hg]
          · isplitl [Ha]; · iexact Ha
            isplitl [Hb]; · iexact Hb
            isplitl [Hc]; · iexact Hc
            isplitl [Hd]; · iexact Hd
            isplitl [He]; · iexact He
            isplitl [Hf]; · iexact Hf
            isplitl [Hg8]; · iexact Hg8
            isplitl [Hh]; · iexact Hh
            unfold owns; iexists _; isplitr
            swap; · iexact HS0
            ipureintro; exact View.read_writes_of_cover _ _ _ _ _ (scover1_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      by_cases hz : t.val = 0
      · exfalso; omega
      ·
        rw [PhiS_castSucc V c t, PhiS_pos V c _ _ hz]
        iintro ⟨⟨⟨Ha, Hb, Hc, Hd, He, Hf, Hg8, Hh, HS0⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Ha Hb Hc Hd He Hf Hg8 Hh HS0 Hg]
        · isplitr [Hg]
          · isplitl [Ha]; · iexact Ha
            isplitl [Hb]; · iexact Hb
            isplitl [Hc]; · iexact Hc
            isplitl [Hd]; · iexact Hd
            isplitl [He]; · iexact He
            isplitl [Hf]; · iexact Hf
            isplitl [Hg8]; · iexact Hg8
            isplitl [Hh]; · iexact Hh
            unfold owns; iexists _; isplitr
            swap; · iexact HS0
            ipureintro; exact View.read_writes_of_cover _ _ _ _ _ (scover1_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the resting form back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨Ha, Hb, Hc, Hd, He, Hf, Hg8, Hh, HS0⟩, Hg⟩
  isplitr [Hg]
  · isplitl [Ha]; · iexact Ha
    isplitl [Hb]; · iexact Hb
    isplitl [Hc]; · iexact Hc
    isplitl [Hd]; · iexact Hd
    isplitl [He]; · iexact He
    isplitl [Hf]; · iexact Hf
    isplitl [Hg8]; · iexact Hg8
    isplitl [Hh]; · iexact Hh
    iexists _; iexact HS0
  iexact Hg

theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Hand

end
-- ==== Proof.MainRun.lean ====
/-
  The whole program: the first launch, the reshape of the bias into a row, the second launch. The contents of the
  core's buffers are followed through the three items as a fold from the launch memory: a launch leaves its arrays
  at what its write-backs fold to and everything else untouched; the reshape writes only the bias row. No item
  writes an argument array, so each ends as launched, and the result array ends at what the second launch's
  write-backs leave in it.
-/
import proofs.«171092_j23046794510859_1_alg».proof.Proof.MaskRegion
import proofs.«171092_j23046794510859_1_alg».proof.Proof.MatRegion

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- Core `c`'s buffers at launch, which is the first launch's entry. -/
abbrev W0 : Dev nD → Valuation τ sig (Elt F) := fun c b => m ((c : Dev nD), b)
abbrev V1 : (c : Dev nD) → (b : Ref sig .tc) → Buf (Elt F) ((c : Thread nD τ).loc b) := fun c b => W0 m c b
/-- After the first launch: its arrays at what the pipeline leaves, every other buffer as entered. -/
def W2 (c : Dev nD) : Valuation τ sig (Elt F) :=
  Pipeline.withArrays spec0 c (W0 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the reshape: the second launch's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second launch. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := (W4_arr m c 0).trans (((dat1 (V3 m) c).arrAt_in 0 rfl _).trans (A_eq1 (V3 m) c 0))
    _ = W2 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W0 m c (Proc.devRef .tc main_arg0) := W2_of_ne m c main_arg0 (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W0 m c (Proc.devRef .tc main_arg1) := (W2_arr m c 0).trans (((dat0 (V1 m) c).arrAt_in 0 rfl _).trans (A_eq0 (V1 m) c 0))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W0 m c (Proc.devRef .tc main_arg2) := W2_of_ne m c main_arg2 (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W0 m c (Proc.devRef .tc main_arg3) := (W2_arr m c 1).trans (((dat0 (V1 m) c).arrAt_in 1 rfl _).trans (A_eq0 (V1 m) c 1))
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W0 m c (Proc.devRef .tc main_arg4) := (W2_arr m c 2).trans (((dat0 (V1 m) c).arrAt_in 2 rfl _).trans (A_eq0 (V1 m) c 2))
    _ = m ((c : Thread nD τ).loc main_arg4) := rfl

/-- The result array ends at what the second launch's write-backs leave in it. -/
theorem W4_main_v2 (c : Dev nD) : W4 m c (Proc.devRef .tc main_v2) = (dat1 (V3 m) c).arrAt 3 cfg1.N := W4_arr m c 3

/-! ## The proof data family and the thread state -/

abbrev adm : (p : Fin 2) → (pcfgs (F := F) p).Adm := fun p => (cfgs p).toPCfg_adm
/-- Each launch's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The launches as segments -/

set_option backward.isDefEq.respectTransparency.types false in
/-- Launch 0 over the thread state: entered from every unscoped buffer at the contents before it, left at the contents
    after it. Its arrays are split out of the unscoped buffers and put back at the exit contents; the generator register
    enters the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at the contents before it, left at the contents
    after it. Its arrays are split out of the unscoped buffers and put back at the exit contents; the generator register
    enters the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h1 : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (show (pdats m 1 c).Φ (Fin.last _) ⊢ Pipeline.ΦA spec1 c from hout1 (V3 m) c).trans h1
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m) () defs₀ 𝒱₀ L lv) :=
  [ .region (reg0 m),
    .host (hseg hostOps1 hostOps1_sub hostOps1_fresh' (W2 m)),
    .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting, and in
    every final state each unscoped buffer of each core holds the last fold's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.Hand

end
-- ==== Proof.Spec.lean ====
/-
  What the program computes, as functions of the argument arrays over the extended reals.

  The masked weight: entry (o, k) of the weight matrix times the sparsity entry read as a number, then its
  non-negative part where the sign entry is 1 and its non-positive part elsewhere.

  The result: entry (a, o) is the sum over k of x(a, k) times the masked weight (o, k), plus the bias entry o: the
  product of x with the transpose of the masked weight, plus the bias along every row.
-/
import Idealize.ShloMosaic.PureOps.Ideal
import Idealize.ShloMosaic.Lib.ValueIdx

noncomputable section

namespace Cert.Spec

open Idealize.ShloMosaic Idealize.ShloMosaic.ValueIdx

/-- The activations' shape, the weights' shape, the bias vector's and the bias row's. -/
abbrev SX : Shape := ⟨2, ![8192, 4096]⟩
abbrev SW : Shape := ⟨2, ![4096, 4096]⟩
abbrev SB : Shape := ⟨1, ![4096]⟩
abbrev SR : Shape := ⟨2, ![1, 4096]⟩

/-- The masked, sign-constrained weight matrix, entry by entry. -/
def MW (w : FVec Ideal SW .f32) (d s : IVec SW 32) : FVec Ideal SW .f32 :=
  select (cmpi .eq d (broadcast SW 1#32))
    (maximumf (mulf w (sitofp .f32 s)) (broadcast SW (Ideal.ofBits .f32 0x00000000#32)))
    (minimumf (mulf w (sitofp .f32 s)) (broadcast SW (Ideal.ofBits .f32 0x00000000#32)))

/-- `x` times the transpose of `wm`, plus the row `br` along every row: entry (a, o) is the sum over k of
    x(a, k) · wm(o, k), plus br(0, o). -/
def MM (x : FVec Ideal SX .f32) (wm : FVec Ideal SW .f32) (br : FVec Ideal SR .f32) : FVec Ideal SX .f32 :=
  fun i => (∑ k : Fin 4096, x (ix2 (i 0) k) * wm (ix2 (i 1) k)) + br (ix2 (0 : Fin 1) (i 1))

/-- The bias vector as a row. -/
def row (b : FVec Ideal SB .f32) : FVec Ideal SR .f32 := fun j => b (ix1 (j 1))

/-- The whole result. -/
def G (x : FVec Ideal SX .f32) (w : FVec Ideal SW .f32) (b : FVec Ideal SB .f32) (d s : IVec SW 32) : FVec Ideal SX .f32 :=
  MM x (MW w d s) (row b)

theorem G_apply (x : FVec Ideal SX .f32) (w : FVec Ideal SW .f32) (b : FVec Ideal SB .f32) (d s : IVec SW 32)
    (a : Fin 8192) (o : Fin 4096) :
    G x w b d s (ix2 a o) = (∑ k : Fin 4096, x (ix2 a k) * MW w d s (ix2 o k)) + b (ix1 o) := rfl

end Cert.Spec

end
-- ==== Proof.LibBiasRow.lean ====
/- A vector of n entries laid along each of the m rows of a matrix, read at an entry: entry (a, j) of the matrix is
   entry j of the vector. Three spellings of the same layout: the vector cast to one row; that row broadcast down
   the rows (a kernel's `vector.shape_cast` then `vector.broadcast`); and the host's two steps, the vector broadcast
   along axis 1 into a one-row matrix, then that matrix broadcast along both axes. This is the bias of a dense layer
   added to every row of a product. -/
import Idealize.ShloMosaic.Lib.ValueIdx
import Idealize.ShloMosaic.Lib.Pipeline.Value
import Idealize.ShloMosaic.Lib.KernelVsHost

noncomputable section

namespace Cert.BiasRow

open Idealize.ShloMosaic Idealize.ShloMosaic.ValueIdx

variable {α : Type}

/-- The vector cast to a one-row matrix reads, at (0, j), the vector at j. -/
theorem oneRow_cast_apply {n : ℕ} (b : (⟨1, ![n]⟩ : Shape).Idx → α)
    (h1 : (⟨1, ![n]⟩ : Shape).ShapeCasts ⟨2, ![1, n]⟩) (j : Fin n) :
    shapeCast ⟨2, ![1, n]⟩ b h1 (ix2 (0 : Fin 1) j) = b (ix1 j) :=
  shapeCast_apply b h1 (ix2 (0 : Fin 1) j) (ix1 j) (by
    rw [Shape.rowMajor_val_two, Shape.rowMajor_val_one]
    show j.val = 0 * n + j.val
    omega)

/-- The kernel's spelling: the one-row cast broadcast down m rows reads, at (a, j), the vector at j. -/
theorem castRows_apply {m n : ℕ} (b : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (a : Fin m) (j : Fin n) :
    broadcastTo ⟨2, ![m, n]⟩ (shapeCast ⟨2, ![1, n]⟩ b h1) hb (ix2 a j) = b (ix1 j) := by
  refine (broadcastTo_apply (shapeCast ⟨2, ![1, n]⟩ b h1) hb (ix2 a j) (ix2 (0 : Fin 1) j) ?_).trans
    (oneRow_cast_apply b h1 j)
  intro ax
  match ax with
  | ⟨0, _⟩ => rfl
  | ⟨1, _⟩ =>
    show j.val = if n = 1 then 0 else j.val
    split
    · have := j.isLt; omega
    · rfl

/-- The host's spelling: the vector broadcast along axis 1 into one row, that row broadcast along both axes into
    m rows, reads, at (a, j), the vector at j. -/
theorem inDimRows_apply {m n : ℕ} (b : (⟨1, ![n]⟩ : Shape).Idx → α)
    (hd1 : (⟨1, ![n]⟩ : Shape).BroadcastsInDim ⟨2, ![1, n]⟩ ![1])
    (hd2 : (⟨2, ![1, n]⟩ : Shape).BroadcastsInDim ⟨2, ![m, n]⟩ ![0, 1]) (a : Fin m) (j : Fin n) :
    broadcastInDim ⟨2, ![m, n]⟩ ![0, 1] hd2 (broadcastInDim ⟨2, ![1, n]⟩ ![1] hd1 b) (ix2 a j) = b (ix1 j) := by
  refine (broadcastInDim_oneRow_apply hd2 _ a j).trans ?_
  refine broadcastInDim_apply ![1] hd1 b (ix2 (0 : Fin 1) j) (ix1 j) ?_
  intro ax
  match ax with
  | ⟨0, _⟩ =>
    show j.val = if n = 1 then 0 else j.val
    split
    · have := j.isLt; omega
    · rfl

end Cert.BiasRow

end
-- ==== Proof.Bridge.lean ====
/-
  What the second launch finds in its three input arrays, in terms of the launch memory: the activations as
  launched; the first launch's result array; the bias vector laid out as one row.
-/
import proofs.«171092_j23046794510859_1_alg».proof.Proof.MainRun
import proofs.«171092_j23046794510859_1_alg».proof.Proof.Spec
import proofs.«171092_j23046794510859_1_alg».proof.Proof.LibBiasRow
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ)

/-- The activations reach the second launch as launched: neither the first launch nor the reshape writes them. -/
theorem V3_main_arg0 (c : Dev nD) : V3 m c main_arg0 = m ((c : Thread nD τ).loc main_arg0) :=
  calc W3 m c (Proc.devRef .tc main_arg0)
    _ = W2 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W0 m c (Proc.devRef .tc main_arg0) := W2_of_ne m c main_arg0 (by decide)
    _ = m ((c : Thread nD τ).loc main_arg0) := rfl

/-- The second operand is what the first launch's write-backs left in its result array. -/
theorem V3_main_v0 (c : Dev nD) : V3 m c main_v0 = (dat0 (V1 m) c).arrAt 3 cfg0.N :=
  calc W3 m c (Proc.devRef .tc main_v0)
    _ = W2 m c (Proc.devRef .tc main_v0) := StableHlo.after_of_forall_not_mem (b := Proc.devRef .tc main_v0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = (dat0 (V1 m) c).arrAt 3 cfg0.N := W2_arr m c 3

/-- The bias row is the bias vector read along its one row. -/
theorem V3_main_v1 (c : Dev nD) : V3 m c main_v1 = Cert.Spec.row (m ((c : Thread nD τ).loc main_arg2)) := by
  have e : (V3 m c main_v1 : S1x4096.Idx → EReal)
      = shapeCast S1x4096 (W2 m c (Proc.devRef .tc main_arg2)) shapeCasts_S4096_S1x4096 := by
    show StableHlo.after hostOps1 (W2 m c) (Proc.devRef .tc main_v1) = _
    after_results
    rfl
  rw [e, W2_of_ne m c main_arg2 (by decide)]
  funext j
  obtain ⟨z, o, rfl⟩ : ∃ (z : Fin 1) (o : Fin 4096), j = ix2 z o := ⟨j 0, j 1, eq_ix2 j⟩
  obtain rfl : z = 0 := Subsingleton.elim _ _
  exact Cert.BiasRow.oneRow_cast_apply _ shapeCasts_S4096_S1x4096 o

end Cert.KernelIdeal.Hand

end
-- ==== Proof.MaskValue.lean ====
/-
  The first launch's result array, whole: every 512 x 512 tile of it is written back once, at the grid point that
  owns it, with the masked weight's entries of that tile; the 64 tiles cover the array.
-/
import proofs.«171092_j23046794510859_1_alg».proof.Proof.MaskRegion
import proofs.«171092_j23046794510859_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-- The one store's rectangle starts at the tile's origin. -/
theorem tile_origin : (![0, 0] : Fin 2 → Nat) = fun _ => 0 := funext fun a => by fin_cases a <;> rfl

/-- The masked weight at an entry: the weight times the sparsity entry read as a number, its non-negative part
    where the sign entry is 1 and its non-positive part elsewhere. -/
def mwAt (w : EReal) (d s : BitVec 32) : EReal :=
  Scalar.select (IntOp.cmpi .eq d 1#32)
    (max (w * FloatOps.sitofp (F := Ideal) .f32 s) (Ideal.ofBits .f32 0x00000000#32))
    (min (w * FloatOps.sitofp (F := Ideal) .f32 s) (Ideal.ofBits .f32 0x00000000#32))

/-- The specification's masked weight, entry by entry. -/
theorem MW_apply (w : FVec Ideal Cert.Spec.SW .f32) (d s : IVec Cert.Spec.SW 32) (i : Cert.Spec.SW.Idx) :
    Cert.Spec.MW w d s i = mwAt (w i) (d i) (s i) := rfl

/-- The body's arithmetic on a tile, entry by entry: of the weight tile `x0`, the sign tile `x1` and the sparsity
    tile `x2`. -/
theorem pay_apply (x0 : Vec Ideal S512x512 .f32) (x1 x2 : Vec Ideal S512x512 .i32) (y : S512x512.Idx) :
    k0_pay1 (F := Ideal) x0 x2 x1 y = mwAt (x0 y) (x1 y) (x2 y) := rfl

/-- The four windows' block indices at a point are the same pair, each below 8. -/
theorem tile_idx : ∀ t : Fin cfg0.N,
    win0_0.index t (0 : Fin 2) = win0_3.index t (0 : Fin 2) ∧ win0_0.index t (1 : Fin 2) = win0_3.index t (1 : Fin 2)
    ∧ win0_1.index t (0 : Fin 2) = win0_3.index t (0 : Fin 2) ∧ win0_1.index t (1 : Fin 2) = win0_3.index t (1 : Fin 2)
    ∧ win0_2.index t (0 : Fin 2) = win0_3.index t (0 : Fin 2) ∧ win0_2.index t (1 : Fin 2) = win0_3.index t (1 : Fin 2)
    ∧ win0_3.index t (0 : Fin 2) ≤ 7 ∧ win0_3.index t (1 : Fin 2) ≤ 7 :=
  (by decide +kernel : ∀ t : Fin grid0.N, _)

/-- Every tile of the 8 x 8 arrangement is some point's. -/
theorem tile_onto : ∀ (q0 : Fin 8) (q1 : Fin 8), ∃ t : Fin cfg0.N, win0_3.index t = ![q0.val, q1.val] :=
  (by decide +kernel : ∀ (q0 : Fin 8) (q1 : Fin 8), ∃ t : Fin grid0.N, win0_3.index t = ![q0.val, q1.val])

/-- What point `t` writes back is tile `t` of the masked weight of the three arrays. -/
theorem mask_flushed (V : (c : Dev nD) → (b : Ref sig .tc) → Buf (Elt Ideal) ((c : Thread nD τ).loc b)) (c : Dev nD) (t : Fin cfg0.N) :
    (dat0 (F := Ideal) V c).flushed 3 t
      = ((cfg0.win 3).blk t).view.read (Elt Ideal) (Cert.Spec.MW (V c main_arg1) (V c main_arg3) (V c main_arg4)) := by
  show (cfg0.win 3).cut (grid0.coords t) ((dat0 V c).after 3 t) = _
  rw [after0_3]
  unfold out0_3
  rw [View.canon_unit_zero tile_origin]
  simp only [View.ld_unit_zero (S := S512x512) tile_origin]
  obtain ⟨e0, e1, e2, e3, e4, e5, -, -⟩ := tile_idx t
  funext j
  show k0_pay1 (F := Ideal) (iblk0 V c 0 t) (iblk0 V c 2 t) (iblk0 V c 1 t) j
    = Cert.Spec.MW (V c main_arg1) (V c main_arg3) (V c main_arg4) (((cfg0.win 3).blk t).view.emb j)
  rw [MW_apply]
  refine (pay_apply _ _ _ _).trans ?_
  show mwAt (V c main_arg1 (((cfg0.win 0).blk t).view.emb j)) (V c main_arg3 (((cfg0.win 1).blk t).view.emb j))
      (V c main_arg4 (((cfg0.win 2).blk t).view.emb j)) = _
  have h0 : ((cfg0.win 0).blk t).view.emb j = ((cfg0.win 3).blk t).view.emb j := by
    funext a; apply Fin.ext
    match a with
    | ⟨0, _⟩ => show win0_0.index t (0 : Fin 2) * 512 + 1 * (j 0).val = win0_3.index t (0 : Fin 2) * 512 + 1 * (j 0).val; rw [e0]
    | ⟨1, _⟩ => show win0_0.index t (1 : Fin 2) * 512 + 1 * (j 1).val = win0_3.index t (1 : Fin 2) * 512 + 1 * (j 1).val; rw [e1]
  have h1 : ((cfg0.win 1).blk t).view.emb j = ((cfg0.win 3).blk t).view.emb j := by
    funext a; apply Fin.ext
    match a with
    | ⟨0, _⟩ => show win0_1.index t (0 : Fin 2) * 512 + 1 * (j 0).val = win0_3.index t (0 : Fin 2) * 512 + 1 * (j 0).val; rw [e2]
    | ⟨1, _⟩ => show win0_1.index t (1 : Fin 2) * 512 + 1 * (j 1).val = win0_3.index t (1 : Fin 2) * 512 + 1 * (j 1).val; rw [e3]
  have h2 : ((cfg0.win 2).blk t).view.emb j = ((cfg0.win 3).blk t).view.emb j := by
    funext a; apply Fin.ext
    match a with
    | ⟨0, _⟩ => show win0_2.index t (0 : Fin 2) * 512 + 1 * (j 0).val = win0_3.index t (0 : Fin 2) * 512 + 1 * (j 0).val; rw [e4]
    | ⟨1, _⟩ => show win0_2.index t (1 : Fin 2) * 512 + 1 * (j 1).val = win0_3.index t (1 : Fin 2) * 512 + 1 * (j 1).val; rw [e5]
  rw [h0, h1, h2]

/-- An entry of the array is in point `t`'s tile iff each coordinate is in the tile's range on its axis. -/
theorem mem_tile (t : Fin cfg0.N) (i : S4096x4096.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v0).slice (win0_3.rect t)).set ↔ _
  rw [View.set_slice_whole, Rect.mem_set_unit]
  exact Iff.rfl

/-- Every entry of the array is in some point's tile: the tile of row `r` and column `k` is `(r / 512, k / 512)`. -/
theorem tiles_cover (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := tile_onto ⟨(i 0).val / 512, by omega⟩ ⟨(i 1).val / 512, by omega⟩
  have q0 : win0_3.index t (0 : Fin 2) = (i 0).val / 512 := congrFun ht 0
  have q1 : win0_3.index t (1 : Fin 2) = (i 1).val / 512 := congrFun ht 1
  refine ⟨t, flush0_3 t, ?_⟩
  rw [mem_tile]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 512 ≤ (i 1).val ∧ (i 1).val < win0_3.index t (1 : Fin 2) * 512 + 512; omega

/-- After the first launch its result array holds the masked weight matrix of the three arrays it read. -/
theorem mask_final (V : (c : Dev nD) → (b : Ref sig .tc) → Buf (Elt Ideal) ((c : Thread nD τ).loc b)) (c : Dev nD) :
    (dat0 (F := Ideal) V c).arrAt 3 cfg0.N = Cert.Spec.MW (V c main_arg1) (V c main_arg3) (V c main_arg4) :=
  (dat0 (F := Ideal) V c).arrAt_eq_of_cover 3 (Cert.Spec.MW (V c main_arg1) (V c main_arg3) (V c main_arg4))
    (fun t _ => mask_flushed V c t) tiles_cover

end Cert.KernelIdeal.Hand

end
-- ==== Proof.LibDotReadRhsT.lean ====
/- A matrix product's contraction sum re-indexed by the contracted coordinate, for the product of an m x k matrix by
   the transpose of an n x k matrix: both operands are contracted along their second axis. -/
import Idealize.ShloMosaic.Lib.ValueIdx
import Idealize.ShloMosaic.PureOps.Ideal.Laws

noncomputable section

open scoped BigOperators

namespace Cert.DotReadRhsT

open Idealize.ShloMosaic Idealize.ShloMosaic.ValueIdx

/-- The right operand transposed: the contraction at (a, b) runs over A (a, c) * B (b, c). -/
theorem sum_contr_rhsT {m k n : Nat}
    (w : DotDims.WF ⟨2, ![m, k]⟩ ⟨2, ![n, k]⟩ ⟨2, ![m, n]⟩ [1] [1] [0] [0] [] [])
    (A : (⟨2, ![m, k]⟩ : Shape).Idx → EReal) (B : (⟨2, ![n, k]⟩ : Shape).Idx → EReal) (a : Fin m) (b : Fin n) :
    ∑ q : (⟨[1], [1], [0], [0], [], [], w⟩ : DotDims ⟨2, ![m, k]⟩ ⟨2, ![n, k]⟩ ⟨2, ![m, n]⟩).contr.Idx,
        A ((⟨[1], [1], [0], [0], [], [], w⟩ : DotDims ⟨2, ![m, k]⟩ ⟨2, ![n, k]⟩ ⟨2, ![m, n]⟩).lhsIdx (ix2 a b) q)
          * B ((⟨[1], [1], [0], [0], [], [], w⟩ : DotDims ⟨2, ![m, k]⟩ ⟨2, ![n, k]⟩ ⟨2, ![m, n]⟩).rhsIdx (ix2 a b) q)
      = ∑ c : Fin k, A (ix2 a c) * B (ix2 b c) := by
  rw [← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.DotReadRhsT

end
-- ==== Proof.MatPieces.lean ====
/-
  The second launch's body as arithmetic, at the extended reals. What each kind of grid point leaves in the
  accumulator and in the output block is the body's arithmetic on what it loaded: one block product added to the
  accumulator's previous contents (to zero where k = 0), and, where k = 3, the accumulator plus the bias row.
  Entry (p, q) of a block product is the sum over r of x(p, r) · w(q, r): both operands are contracted along their
  second axis.
-/
import proofs.«171092_j23046794510859_1_alg».proof.Proof.MatRegion
import proofs.«171092_j23046794510859_1_alg».proof.Proof.LibDotReadRhsT
import Idealize.ShloMosaic.Lib.ValueIdx
import Idealize.ShloMosaic.Lib.ValueLayout
import Idealize.ShloMosaic.Lib.Pipeline.Value
import Idealize.ShloMosaic.Lib.Pipeline.FrameBody
import Idealize.ShloMosaic.Lib.Tactic
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic

/-! ## The found pieces are the body's arithmetic -/

/-- The two zero offsets of a whole-block rectangle, spelt as the constant function. -/
theorem offsets_zero2 : (![0, 0] : Fin 2 → Nat) = fun _ => 0 := funext fun a => by fin_cases a <;> rfl

section Pieces
variable {F : FTy → Type} [FloatOps F]

/-- Where k = 0 the accumulator ends at the block product added to the cleared accumulator. -/
theorem sout1_A_0_eq (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) (x2 : Vec F S1x1024 .f32) :
    sout1_A_0 c i arg3 harg3 arg4 harg4 arg5 harg5 arg6 harg6 arg7 harg7 hc0 hc1 x0 x1 x2 = k1_pay2 x0 x1 (k1_pay1 (F := F)) := by
  unfold sout1_A_0
  rw [View.read_writes_eq_canon _ _ _ (scover1_A_0 c i arg3 harg3 arg4 harg4 arg5 harg5 arg6 harg6 arg7 harg7 hc0 hc1 x0 x1 x2)]
  unfold kernelRun1_A
  dsimp only
  sl_unfold_words
  -- two pieces, the later covering: the sum stored over the zeros; the sum's third operand is the zeros read back
  rw [View.canon_cons_unit_zero (S := S1024x1024) offsets_zero2]
  simp only [View.readAt_eq_ld, harg3.read_unread, harg4.read_unread, View.ld_unit_zero (S := S1024x1024) offsets_zero2,
    View.readCov_unit_zero (S := S1024x1024) _ offsets_zero2]

/-- Where k = 1, 2 it ends at the block product added to what it held. -/
theorem sout1_B_0_eq (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (x2 : Vec F S1x1024 .f32) (xs0 : Vec F S1024x1024 .f32) :
    sout1_B_0 c i arg3 harg3 arg4 harg4 arg5 harg5 arg6 harg6 arg7 harg7 hc0 hc1 x0 x1 x2 xs0 = k1_pay2 x0 x1 xs0 := by
  unfold sout1_B_0
  rw [View.read_writes_eq_canon _ _ _ (scover1_B_0 c i arg3 harg3 arg4 harg4 arg5 harg5 arg6 harg6 arg7 harg7 hc0 hc1 x0 x1 x2 xs0)]
  unfold kernelRun1_B
  dsimp only
  sl_unfold_words
  rw [View.canon_unit_zero (S := S1024x1024) offsets_zero2]
  simp only [View.readAt_eq_ld, harg3.read_unread, harg4.read_unread, harg7.read_unread,
    View.ld_unit_zero (S := S1024x1024) offsets_zero2]

/-- Where k = 3 likewise, -/
theorem sout1_C_0_eq (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1x1024 .f32) (xs0 : Vec F S1024x1024 .f32) :
    sout1_C_0 c i arg3 harg3 arg4 harg4 arg5 harg5 arg6 harg6 arg7 harg7 hc0 hc1 x0 x1 x2 xs0 = k1_pay2 x0 x1 xs0 := by
  unfold sout1_C_0
  rw [View.read_writes_eq_canon _ _ _ (scover1_C_0 c i arg3 harg3 arg4 harg4 arg5 harg5 arg6 harg6 arg7 harg7 hc0 hc1 x0 x1 x2 xs0)]
  unfold kernelRun1_C
  dsimp only
  sl_unfold_words
  rw [View.canon_unit_zero (S := S1024x1024) offsets_zero2]
  simp only [View.readAt_eq_ld, harg3.read_unread, harg4.read_unread, harg7.read_unread,
    View.ld_unit_zero (S := S1024x1024) offsets_zero2]

/-- and the output block is the new accumulator plus the bias row. -/
theorem out1_C_3_eq (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1x1024 .f32) (xs0 : Vec F S1024x1024 .f32) :
    out1_C_3 c i arg3 harg3 arg4 harg4 arg5 harg5 arg6 harg6 arg7 harg7 hc0 hc1 x0 x1 x2 xs0 = k1_pay3 (k1_pay2 x0 x1 xs0) x2 := by
  unfold out1_C_3
  rw [View.read_writes_eq_canon _ _ _ (cover1_C_3 c i arg3 harg3 arg4 harg4 arg5 harg5 arg6 harg6 arg7 harg7 hc0 hc1 x0 x1 x2 xs0)]
  unfold kernelRun1_C
  dsimp only
  sl_unfold_words
  -- the stored sum's first operand is the accumulator read back after its one covering store
  rw [View.canon_unit_zero (S := S1024x1024) offsets_zero2]
  simp only [View.readAt_eq_ld, harg3.read_unread, harg4.read_unread, harg5.read_unread, harg7.read_unread,
    View.ld_unit_zero (S := S1024x1024) offsets_zero2, View.ld_unit_zero (S := S1x1024) offsets_zero2,
    View.readCov_unit_zero (S := S1024x1024) _ offsets_zero2]

end Pieces

/-! ## The arithmetic at an entry, over the extended reals -/

/-- The cleared accumulator is zero everywhere. -/
theorem k1_pay1_apply (p q : Fin 1024) : k1_pay1 (F := Ideal) (ix2 p q) = 0 := by
  unfold k1_pay1
  refine (congrFun (shapeCast_self _ shapeCasts_S1024x1024_S1024x1024) (ix2 p q)).trans ?_
  exact Ideal.ofBits_zero_f32

/-- The product of a block by the transpose of a block, into the zero accumulator, at entry (p, q): the sum over r
    of the left block's (p, r) times the right block's (q, r). -/
theorem blockProduct_apply (A B : FVec Ideal S1024x1024 .bf16) (p q : Fin 1024) :
    matmul (F := Ideal) dot_S1024x1024_S1024x1024_S1024x1024_1_1_0_0_n_n none A B
        (constant (F := Ideal) S1024x1024 .f32 0x00000000#32) (ix2 p q)
      = ∑ r : Fin 1024, A (ix2 p r) * B (ix2 q r) := by
  refine (Ideal.matmul_constant_zero_apply dot_S1024x1024_S1024x1024_S1024x1024_1_1_0_0_n_n none A B (ix2 p q)).trans ?_
  exact Cert.DotReadRhsT.sum_contr_rhsT dot_S1024x1024_S1024x1024_S1024x1024_1_1_0_0_n_n_wf A B p q

/-- One accumulation step at entry (p, q): the previous contents plus the sum over r of x(p, r) · w(q, r). -/
theorem k1_pay2_apply (x0 : Vec Ideal S1024x1024 .f32) (x1 : Vec Ideal S1024x1024 .bf16) (xs0 : Vec Ideal S1024x1024 .f32)
    (p q : Fin 1024) :
    k1_pay2 (F := Ideal) x0 x1 xs0 (ix2 p q) = xs0 (ix2 p q) + ∑ r : Fin 1024, x0 (ix2 p r) * x1 (ix2 q r) := by
  unfold k1_pay2
  refine (congrFun (shapeCast_self _ shapeCasts_S1024x1024_S1024x1024) (ix2 p q)).trans ?_
  refine (addf_apply _ _ (ix2 p q)).trans ?_
  refine congrArg (xs0 (ix2 p q) + ·) ?_
  -- the narrowing of the left block is the identity on extended reals; the right block's cast keeps its shape
  refine (blockProduct_apply _ _ p q).trans ?_
  refine Finset.sum_congr rfl fun r _ => ?_
  exact congrArg (x0 (ix2 p r) * ·) (congrFun (shapeCast_self x1 shapeCasts_S1024x1024_S1024x1024) (ix2 q r))

/-- The emitted entry (p, q): the accumulator's entry plus the bias row's entry q. -/
theorem k1_pay3_apply (s : Vec Ideal S1024x1024 .f32) (b : Vec Ideal S1x1024 .f32) (p q : Fin 1024) :
    k1_pay3 (F := Ideal) s b (ix2 p q) = s (ix2 p q) + b (ix2 (0 : Fin 1) q) := by
  unfold k1_pay3
  refine (addf_apply _ _ (ix2 p q)).trans ?_
  refine congrArg (s (ix2 p q) + ·) ?_
  -- the one-row bias laid down the rows: entry (p, q) reads the row's entry (0, q)
  refine (broadcastTo_apply _ broadcasts_S1x1024_S1024x1024 (ix2 p q) (ix2 (0 : Fin 1) q) ?_).trans ?_
  · intro ax
    match ax with
    | ⟨0, _⟩ => rfl
    | ⟨1, _⟩ =>
      show q.val = if (1024 : Nat) = 1 then 0 else q.val
      rw [if_neg (by decide)]
  · exact congrFun (shapeCast_self b shapeCasts_S1x1024_S1x1024) (ix2 (0 : Fin 1) q)

end Cert.KernelIdeal.Hand

end
-- ==== Proof.LibBlockedSum.lean ====
/- A sum over a range of naturals cut into consecutive blocks of equal length: summing block by block, each block
   over its places, is summing over the whole range. Stated for a function of the naturals with values in a
   commutative additive monoid, so that the blocks' terms are named by arithmetic on positions alone. -/
import Mathlib.Algebra.BigOperators.Fin
import Mathlib.Algebra.BigOperators.Intervals

open scoped BigOperators

namespace Cert.BlockedSum

variable {M : Type*} [AddCommMonoid M]

/-- Over ranges: the sum over `nb` blocks of the sum over the `bs` places of block `s`, which are the positions
    `bs * s + r`, is the sum over the first `nb * bs` positions. By induction on the number of blocks: the last
    block is the tail of the longer range. -/
theorem sum_range_blocks (f : ℕ → M) (bs : ℕ) : ∀ nb : ℕ,
    ∑ s ∈ Finset.range nb, ∑ r ∈ Finset.range bs, f (bs * s + r) = ∑ k ∈ Finset.range (nb * bs), f k
  | 0 => by simp
  | nb + 1 => by
    rw [Finset.sum_range_succ, sum_range_blocks f bs nb, Nat.succ_mul, Finset.sum_range_add, Nat.mul_comm bs nb]

/-- The same with the places of a block and the positions of the whole range as bounded naturals. -/
theorem sum_blocks_fin (f : ℕ → M) (nb bs : ℕ) :
    ∑ s ∈ Finset.range nb, ∑ r : Fin bs, f (bs * s + r.val) = ∑ k : Fin (nb * bs), f k.val := by
  rw [Fin.sum_univ_eq_sum_range f (nb * bs), ← sum_range_blocks f bs nb]
  exact Finset.sum_congr rfl fun s _ => Fin.sum_univ_eq_sum_range (fun r => f (bs * s + r)) bs

end Cert.BlockedSum
-- ==== Proof.MatValue.lean ====
/-
  The second launch's result array, whole. For output block (i, j) the accumulator after the point with innermost
  coordinate k holds, at entry (p, q), the sum over the first k + 1 contraction blocks of x(1024 i + p, ·) · w(1024 j + q, ·);
  at k = 3 that is the whole contraction, the bias entry is added, and the block is written back. The 32 blocks cover
  the array.
-/
import proofs.«171092_j23046794510859_1_alg».proof.Proof.MatRegion
import proofs.«171092_j23046794510859_1_alg».proof.Proof.MatPieces
import proofs.«171092_j23046794510859_1_alg».proof.Proof.Spec
import proofs.«171092_j23046794510859_1_alg».proof.Proof.LibBlockedSum
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

namespace MatEntries

section Whole

variable (V : (c : Dev nD) → (b : Ref sig .tc) → Buf (Elt Ideal) ((c : Thread nD τ).loc b))

/-! ## The arrays and the blocks, at their literal types -/

/-- The activations, the second operand and the bias row as the launch finds them. -/
abbrev xarr (c : Dev nD) : Vec Ideal S8192x4096 .f32 := V c main_arg0
abbrev warr (c : Dev nD) : Vec Ideal S4096x4096 .bf16 := V c main_v0
abbrev barr (c : Dev nD) : Vec Ideal S1x4096 .f32 := V c main_v1

/-- Their blocks at point `t`. -/
abbrev xblk (c : Dev nD) (t : Fin cfg1.N) : Vec Ideal S1024x1024 .f32 := iblk1 V c 0 t
abbrev wblk (c : Dev nD) (t : Fin cfg1.N) : Vec Ideal S1024x1024 .bf16 := iblk1 V c 1 t
abbrev bblk (c : Dev nD) (t : Fin cfg1.N) : Vec Ideal S1x1024 .f32 := iblk1 V c 2 t

/-- The result: the product with the transposed second operand, plus the bias row. -/
abbrev resArr (c : Dev nD) : Vec Ideal S8192x4096 .f32 := Cert.Spec.MM (xarr V c) (warr V c) (barr V c)

/-! ## The block indices, as arithmetic on the linear point -/

/-- With t = 16 i + 4 j + k: the activations' block is (i, k), the second operand's (j, k), the bias row's (0, j),
    the result's (i, j). -/
theorem block_index : ∀ t : Fin cfg1.N,
    win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 2) = 0 ∧ win1_2.index t (1 : Fin 2) = t.val / 4 % 4
    ∧ win1_3.index t (0 : Fin 2) = t.val / 16 ∧ win1_3.index t (1 : Fin 2) = t.val / 4 % 4 :=
  (by decide +kernel : ∀ t : Fin grid1.N, _)

/-! ## A block's entry is the array's entry -/

theorem xblk_apply (c : Dev nD) (t : Fin cfg1.N) (p r : Fin 1024) (a : Fin 8192) (k : Fin 4096)
    (ha : a.val = 1024 * (t.val / 16) + p.val) (hk : k.val = 1024 * (t.val % 4) + r.val) :
    xblk V c t (ix2 p r) = xarr V c (ix2 a k) := by
  obtain ⟨e0, e1, -, -, -, -, -, -⟩ := block_index t
  show V c main_arg0 (((cfg1.win 0).blk t).view.emb (ix2 p r)) = V c main_arg0 (ix2 a k)
  congr 1
  funext d
  apply Fin.ext
  match d with
  | ⟨0, _⟩ => show win1_0.index t (0 : Fin 2) * 1024 + 1 * p.val = a.val; omega
  | ⟨1, _⟩ => show win1_0.index t (1 : Fin 2) * 1024 + 1 * r.val = k.val; omega

theorem wblk_apply (c : Dev nD) (t : Fin cfg1.N) (q r : Fin 1024) (o : Fin 4096) (k : Fin 4096)
    (ho : o.val = 1024 * (t.val / 4 % 4) + q.val) (hk : k.val = 1024 * (t.val % 4) + r.val) :
    wblk V c t (ix2 q r) = warr V c (ix2 o k) := by
  obtain ⟨-, -, e0, e1, -, -, -, -⟩ := block_index t
  show V c main_v0 (((cfg1.win 1).blk t).view.emb (ix2 q r)) = V c main_v0 (ix2 o k)
  congr 1
  funext d
  apply Fin.ext
  match d with
  | ⟨0, _⟩ => show win1_1.index t (0 : Fin 2) * 1024 + 1 * q.val = o.val; omega
  | ⟨1, _⟩ => show win1_1.index t (1 : Fin 2) * 1024 + 1 * r.val = k.val; omega

theorem bblk_apply (c : Dev nD) (t : Fin cfg1.N) (q : Fin 1024) (o : Fin 4096)
    (ho : o.val = 1024 * (t.val / 4 % 4) + q.val) :
    bblk V c t (ix2 (0 : Fin 1) q) = barr V c (ix2 (0 : Fin 1) o) := by
  obtain ⟨-, -, -, -, e0, e1, -, -⟩ := block_index t
  show V c main_v1 (((cfg1.win 2).blk t).view.emb (ix2 (0 : Fin 1) q)) = V c main_v1 (ix2 (0 : Fin 1) o)
  congr 1
  funext d
  apply Fin.ext
  match d with
  | ⟨0, _⟩ => show win1_2.index t (0 : Fin 2) * 1 + 1 * 0 = 0; omega
  | ⟨1, _⟩ => show win1_2.index t (1 : Fin 2) * 1024 + 1 * q.val = o.val; omega

/-! ## One accumulation step at an entry, by the kind of point -/

/-- Where k = 0 the accumulator's entry is the block product's entry. -/
theorem accA_apply (c : Dev nD) (t : Fin cfg1.N) (h0 : t.val % 4 = 0) (h1 : ¬t.val % 4 = 3) (p q : Fin 1024) :
    (outsAt1 V c t.val t.isLt).2 (ix2 p q) = ∑ r : Fin 1024, xblk V c t (ix2 p r) * wblk V c t (ix2 q r) := by
  rw [outsAt1_A V c t h0 h1]
  dsimp only
  refine (congrFun (sout1_A_0_eq (F := Ideal) c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (xblk V c t) (wblk V c t) (bblk V c t)) (ix2 p q)).trans ?_
  rw [k1_pay2_apply, k1_pay1_apply, zero_add]

/-- Where k = 1, 2 it is the entry the point before left plus the block product's entry. -/
theorem accB_apply (c : Dev nD) (t : Fin cfg1.N) (h0 : ¬t.val % 4 = 0) (h1 : ¬t.val % 4 = 3) (p q : Fin 1024) :
    (outsAt1 V c t.val t.isLt).2 (ix2 p q) = (outsAt1 V c (t.val - 1) (Nat.lt_of_le_of_lt (Nat.sub_le _ _) t.isLt)).2 (ix2 p q)
      + ∑ r : Fin 1024, xblk V c t (ix2 p r) * wblk V c t (ix2 q r) := by
  rw [outsAt1_B V c t h0 h1]
  dsimp only
  refine (congrFun (sout1_B_0_eq (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (xblk V c t) (wblk V c t) (bblk V c t) (outsAt1 V c (t.val - 1) (Nat.lt_of_le_of_lt (Nat.sub_le _ _) t.isLt)).2) (ix2 p q)).trans ?_
  rw [k1_pay2_apply]

/-- Where k = 3 likewise, -/
theorem accC_apply (c : Dev nD) (t : Fin cfg1.N) (h0 : ¬t.val % 4 = 0) (h1 : t.val % 4 = 3) (p q : Fin 1024) :
    (outsAt1 V c t.val t.isLt).2 (ix2 p q) = (outsAt1 V c (t.val - 1) (Nat.lt_of_le_of_lt (Nat.sub_le _ _) t.isLt)).2 (ix2 p q)
      + ∑ r : Fin 1024, xblk V c t (ix2 p r) * wblk V c t (ix2 q r) := by
  rw [outsAt1_C V c t h0 h1]
  dsimp only
  refine (congrFun (sout1_C_0_eq (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (xblk V c t) (wblk V c t) (bblk V c t) (outsAt1 V c (t.val - 1) (Nat.lt_of_le_of_lt (Nat.sub_le _ _) t.isLt)).2) (ix2 p q)).trans ?_
  rw [k1_pay2_apply]

/-- and the output block's entry is that new accumulator entry plus the bias block's entry. -/
theorem outC_apply (c : Dev nD) (t : Fin cfg1.N) (h0 : ¬t.val % 4 = 0) (h1 : t.val % 4 = 3) (p q : Fin 1024) :
    (outsAt1 V c t.val t.isLt).1 (ix2 p q) = ((outsAt1 V c (t.val - 1) (Nat.lt_of_le_of_lt (Nat.sub_le _ _) t.isLt)).2 (ix2 p q)
      + ∑ r : Fin 1024, xblk V c t (ix2 p r) * wblk V c t (ix2 q r)) + bblk V c t (ix2 (0 : Fin 1) q) := by
  rw [outsAt1_C V c t h0 h1]
  dsimp only
  refine (congrFun (out1_C_3_eq (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (xblk V c t) (wblk V c t) (bblk V c t) (outsAt1 V c (t.val - 1) (Nat.lt_of_le_of_lt (Nat.sub_le _ _) t.isLt)).2) (ix2 p q)).trans ?_
  rw [k1_pay3_apply, k1_pay2_apply]

/-! ## The accumulator after each point -/

/-- Term n of the contraction for result entry (a, o), as a function of the naturals (zero past the end). -/
def term (c : Dev nD) (a : Fin 8192) (o : Fin 4096) (n : ℕ) : EReal :=
  if h : n < 4096 then xarr V c (ix2 a ⟨n, h⟩) * warr V c (ix2 o ⟨n, h⟩) else 0

/-- The block product's entry at point t = 16 i + 4 j + k is block k of the contraction for result entry
    (1024 i + p, 1024 j + q). -/
theorem block_sum (c : Dev nD) (t : Fin cfg1.N) (p q : Fin 1024) (a : Fin 8192) (o : Fin 4096)
    (ha : a.val = 1024 * (t.val / 16) + p.val) (ho : o.val = 1024 * (t.val / 4 % 4) + q.val) :
    ∑ r : Fin 1024, xblk V c t (ix2 p r) * wblk V c t (ix2 q r) = ∑ r : Fin 1024, term V c a o (1024 * (t.val % 4) + r.val) := by
  refine Finset.sum_congr rfl fun r _ => ?_
  have hk : 1024 * (t.val % 4) + r.val < 4096 := by have := r.isLt; omega
  unfold term
  rw [dif_pos hk, xblk_apply V c t p r a ⟨_, hk⟩ ha rfl, wblk_apply V c t q r o ⟨_, hk⟩ ho rfl]

/-- Adding block k to the first k blocks gives the first k + 1 (k = n mod 4, not 0). -/
theorem range_step (f : ℕ → EReal) (n : ℕ) (h : ¬n % 4 = 0) :
    ∑ s ∈ Finset.range ((n - 1) % 4 + 1), f s + f (n % 4) = ∑ s ∈ Finset.range (n % 4 + 1), f s := by
  have hk : n % 4 = (n - 1) % 4 + 1 := by omega
  rw [hk]
  exact (Finset.sum_range_succ f ((n - 1) % 4 + 1)).symm

/-- The four blocks are the whole contraction. -/
theorem whole_sum (c : Dev nD) (a : Fin 8192) (o : Fin 4096) :
    ∑ s ∈ Finset.range 4, ∑ r : Fin 1024, term V c a o (1024 * s + r.val)
      = ∑ k : Fin 4096, xarr V c (ix2 a k) * warr V c (ix2 o k) := by
  rw [Cert.BlockedSum.sum_blocks_fin (term V c a o) 4 1024]
  show ∑ k : Fin 4096, term V c a o k.val = _
  refine Finset.sum_congr rfl fun k _ => ?_
  unfold term
  rw [dif_pos k.isLt]

/-- After the point t = 16 i + 4 j + k the accumulator's entry (p, q) is the sum of the first k + 1 blocks of the
    contraction for result entry (1024 i + p, 1024 j + q). -/
theorem acc_eq (c : Dev nD) : ∀ (n : ℕ) (hn : n < cfg1.N) (p q : Fin 1024) (a : Fin 8192) (o : Fin 4096),
    a.val = 1024 * (n / 16) + p.val → o.val = 1024 * (n / 4 % 4) + q.val →
    (outsAt1 V c n hn).2 (ix2 p q) = ∑ s ∈ Finset.range (n % 4 + 1), ∑ r : Fin 1024, term V c a o (1024 * s + r.val) := by
  intro n
  induction n using Nat.strong_induction_on with
  | _ n ih =>
    intro hn p q a o ha ho
    by_cases h0 : n % 4 = 0
    · have h1 : ¬n % 4 = 3 := by omega
      refine (accA_apply V c ⟨n, hn⟩ h0 h1 p q).trans ?_
      rw [block_sum V c ⟨n, hn⟩ p q a o ha ho]
      show _ = ∑ s ∈ Finset.range (n % 4 + 1), ∑ r : Fin 1024, term V c a o (1024 * s + r.val)
      rw [h0, Finset.sum_range_one]
    · have hprev := ih (n - 1) (by omega) (Nat.lt_of_le_of_lt (Nat.sub_le _ _) hn) p q a o (by omega) (by omega)
      by_cases h1 : n % 4 = 3
      · refine (accC_apply V c ⟨n, hn⟩ h0 h1 p q).trans ?_
        rw [block_sum V c ⟨n, hn⟩ p q a o ha ho]
        refine Eq.trans ?_ (range_step (fun s => ∑ r : Fin 1024, term V c a o (1024 * s + r.val)) n h0)
        exact congrArg (fun z => z + ∑ r : Fin 1024, term V c a o (1024 * (n % 4) + r.val)) hprev
      · refine (accB_apply V c ⟨n, hn⟩ h0 h1 p q).trans ?_
        rw [block_sum V c ⟨n, hn⟩ p q a o ha ho]
        refine Eq.trans ?_ (range_step (fun s => ∑ r : Fin 1024, term V c a o (1024 * s + r.val)) n h0)
        exact congrArg (fun z => z + ∑ r : Fin 1024, term V c a o (1024 * (n % 4) + r.val)) hprev

/-! ## What a flushing point writes back -/

theorem flushed_eq (c : Dev nD) (t : Fin cfg1.N) (hf : (cfg1.win 3).flush t = true) :
    (dat1 (F := Ideal) V c).flushed 3 t = ((cfg1.win 3).blk t).view.read (Elt Ideal) (resArr V c) := by
  have h1 : t.val % 4 = 3 := (flush1_3 t).mp hf
  have h0 : ¬t.val % 4 = 0 := by omega
  have hN : t.val < 128 := lt_of_lt_of_eq t.isLt (show cfg1.N = 128 from N_1)
  obtain ⟨-, -, -, -, -, -, e0, e1⟩ := block_index t
  show (cfg1.win 3).cut (grid1.coords t) ((dat1 V c).after 3 t) = _
  rw [after1_3]
  funext j
  obtain ⟨p, q, rfl⟩ : ∃ (p q : Fin 1024), j = ix2 p q := ⟨j 0, j 1, eq_ix2 j⟩
  have ha : 1024 * (t.val / 16) + p.val < 8192 := by have := p.isLt; omega
  have ho : 1024 * (t.val / 4 % 4) + q.val < 4096 := by have := q.isLt; omega
  have hemb : ((cfg1.win 3).blk t).view.emb (ix2 p q) = ix2 (⟨_, ha⟩ : Fin 8192) (⟨_, ho⟩ : Fin 4096) := by
    funext d
    apply Fin.ext
    match d with
    | ⟨0, _⟩ => show win1_3.index t (0 : Fin 2) * 1024 + 1 * p.val = 1024 * (t.val / 16) + p.val; omega
    | ⟨1, _⟩ => show win1_3.index t (1 : Fin 2) * 1024 + 1 * q.val = 1024 * (t.val / 4 % 4) + q.val; omega
  show (outsAt1 V c t.val t.isLt).1 (ix2 p q) = resArr V c (((cfg1.win 3).blk t).view.emb (ix2 p q))
  rw [hemb, outC_apply V c t h0 h1 p q, block_sum V c t p q ⟨_, ha⟩ ⟨_, ho⟩ rfl rfl,
    acc_eq V c (t.val - 1) (Nat.lt_of_le_of_lt (Nat.sub_le _ _) t.isLt) p q ⟨_, ha⟩ ⟨_, ho⟩
      (by show 1024 * (t.val / 16) + p.val = 1024 * ((t.val - 1) / 16) + p.val; omega)
      (by show 1024 * (t.val / 4 % 4) + q.val = 1024 * ((t.val - 1) / 4 % 4) + q.val; omega),
    bblk_apply V c t q ⟨_, ho⟩ rfl,
    range_step (fun s => ∑ r : Fin 1024, term V c ⟨_, ha⟩ ⟨_, ho⟩ (1024 * s + r.val)) t.val h0, h1,
    whole_sum V c ⟨_, ha⟩ ⟨_, ho⟩]
  rfl

/-! ## The blocks cover the array -/

theorem mem_blk (t : Fin cfg1.N) (i : S8192x4096.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v2).slice (win1_3.rect t)).set ↔ _
  rw [View.set_slice_whole, Rect.mem_set_unit]
  exact Iff.rfl

theorem cover (i : S8192x4096.Idx) : ∃ t : Fin cfg1.N, (cfg1.win 3).flush t = true ∧ i ∈ ((cfg1.win 3).blk t).view.set := by
  have hi0 : (i 0).val < 8192 := (i 0).isLt
  have hi1 : (i 1).val < 4096 := (i 1).isLt
  have hN : cfg1.N = 128 := N_1
  let t : Fin cfg1.N := ⟨16 * ((i 0).val / 1024) + 4 * ((i 1).val / 1024) + 3, by rw [hN]; omega⟩
  have ht : t.val = 16 * ((i 0).val / 1024) + 4 * ((i 1).val / 1024) + 3 := rfl
  obtain ⟨-, -, -, -, -, -, e0, e1⟩ := block_index t
  refine ⟨t, (flush1_3 t).mpr (by omega), ?_⟩
  rw [mem_blk]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1024 ≤ (i 1).val ∧ (i 1).val < win1_3.index t (1 : Fin 2) * 1024 + 1024; omega

end Whole

end MatEntries

/-- After the second launch its result array holds the product of the activations with the transposed second operand,
    plus the bias row along every row. -/
theorem mat_final (V : (c : Dev nD) → (b : Ref sig .tc) → Buf (Elt Ideal) ((c : Thread nD τ).loc b)) (c : Dev nD) :
    (dat1 (F := Ideal) V c).arrAt 3 cfg1.N = Cert.Spec.MM (V c main_arg0) (V c main_v0) (V c main_v1) :=
  (dat1 (F := Ideal) V c).arrAt_eq_of_cover 3 (MatEntries.resArr V c) (MatEntries.flushed_eq V c) MatEntries.cover

end Cert.KernelIdeal.Hand

end
-- ==== Proof.KernelValue.lean ====
/-
  The idealized kernel's result array in terms of the launch memory: the second launch's write-backs leave the
  product of the activations with the transpose of what the first launch left (the masked weight matrix), plus the
  bias row (the bias vector) along every row: the specification's function of the five arguments.
-/
import proofs.«171092_j23046794510859_1_alg».proof.Proof.Bridge
import proofs.«171092_j23046794510859_1_alg».proof.Proof.MaskValue
import proofs.«171092_j23046794510859_1_alg».proof.Proof.MatValue

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-- The result array after the whole program. -/
theorem result_eq (c : Dev nD) :
    W4 m c (Proc.devRef .tc main_v2)
      = Cert.Spec.G (m ((c : Thread nD τ).loc main_arg0)) (m ((c : Thread nD τ).loc main_arg1)) (m ((c : Thread nD τ).loc main_arg2))
          (m ((c : Thread nD τ).loc main_arg3)) (m ((c : Thread nD τ).loc main_arg4)) := by
  rw [W4_main_v2, mat_final (V3 m) c, V3_main_arg0, V3_main_v0, V3_main_v1, mask_final (V1 m) c]
  rfl

end Cert.KernelIdeal.Hand

end
-- ==== Proof.RefValue.lean ====
/-
  The reference's result, read one operation at a time, is the specification's function of the arguments: the
  masked weight entry by entry, its transpose contracted with the activations, the bias broadcast along the rows.
-/
import proofs.«171092_j23046794510859_1_alg».proof.Proof.Gen.ReferenceIdeal.Run
import proofs.«171092_j23046794510859_1_alg».proof.Proof.Gen.ReferenceIdeal.Read
import proofs.«171092_j23046794510859_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx

/-! ## The stages' index functions at an index given by its coordinates -/

/-- The contraction reads the activations at row `a`, column `k`. -/
theorem lidx_at (a : Fin 8192) (o k : Fin 4096) : lidx_main_v10 (ix2 a o) k = ix2 a k :=
  funext fun ax => Fin.ext (by match ax with | ⟨0, _⟩ => rfl | ⟨1, _⟩ => rfl)

/-- The contraction reads the transposed weight at row `k`, column `o`. -/
theorem ridx_at (a : Fin 8192) (o k : Fin 4096) : ridx_main_v10 (ix2 a o) k = ix2 k o :=
  funext fun ax => Fin.ext (by match ax with | ⟨0, _⟩ => rfl | ⟨1, _⟩ => rfl)

/-- The transpose at `(k, o)` reads its operand at `(o, k)`. -/
theorem tidx_at (o k : Fin 4096) : idx_main_v9 (ix2 k o) = ix2 o k :=
  funext fun ax => Fin.ext (by match ax with | ⟨0, _⟩ => rfl | ⟨1, _⟩ => rfl)

/-- The bias row broadcast along the rows reads the row at `(0, o)`. -/
theorem bidx_at (a : Fin 8192) (o : Fin 4096) : idx_main_v12 (ix2 a o) = ix2 (0 : Fin 1) o :=
  funext fun ax => Fin.ext (by match ax with | ⟨0, _⟩ => rfl | ⟨1, _⟩ => rfl)

/-- The bias row at `(0, o)` reads the bias vector at `o`. -/
theorem ridx1_at (o : Fin 4096) : idx_main_v11 (ix2 (0 : Fin 1) o) = ix1 o :=
  funext fun ax => Fin.ext (by match ax with | ⟨0, _⟩ => rfl)

/-! ## The masked weight -/

/-- The selected stage is the specification's masked weight: entry by entry the weight times the sparsity entry
    read as a number, its non-negative part where the sign entry is 1 and its non-positive part elsewhere. -/
theorem v8_is_MW (x1 : (⟨S4096x4096, .f32⟩ : BufTy).Contents (Elt Ideal)) (x3 x4 : (⟨S4096x4096, .i32⟩ : BufTy).Contents (Elt Ideal)) :
    val_main_v8 (F := Ideal) x1 x3 x4 = Cert.Spec.MW x1 x3 x4 := by
  funext j
  rw [val_main_v8_apply, val_main_v3_apply, val_main_v2_apply, val_main_c_apply, val_main_v5_apply, val_main_v4_apply,
    val_main_cst_apply, val_main_v7_apply, val_main_v6_apply, val_main_cst_0_apply, val_main_v1_apply, val_main_v0_apply]
  rfl

/-! ## The whole result -/

/-- The reference's last stage is the specification. -/
theorem ref_is_G (x0 : (⟨S8192x4096, .f32⟩ : BufTy).Contents (Elt Ideal)) (x1 : (⟨S4096x4096, .f32⟩ : BufTy).Contents (Elt Ideal))
    (x2 : (⟨S4096, .f32⟩ : BufTy).Contents (Elt Ideal)) (x3 x4 : (⟨S4096x4096, .i32⟩ : BufTy).Contents (Elt Ideal)) :
    val_main_v13 (F := Ideal) x0 x1 x2 x3 x4 = Cert.Spec.G x0 x1 x2 x3 x4 := by
  funext i
  obtain ⟨a, o, rfl⟩ : ∃ (a : Fin 8192) (o : Fin 4096), i = ix2 a o := ⟨i 0, i 1, eq_ix2 i⟩
  rw [val_main_v13_apply, val_main_v10_apply, val_main_v12_apply, bidx_at, val_main_v11_apply, ridx1_at,
    Cert.Spec.G_apply]
  refine congrArg₂ (· + ·) (Finset.sum_congr rfl fun k _ => ?_) rfl
  rw [lidx_at, ridx_at, val_main_v9_apply, tidx_at, v8_is_MW]

end Cert.ReferenceIdeal.RefValue

end
-- ==== Proof.lean ====
/-
  The certificate. Both printed kernels run the same two launches, so one frame argument, written once over any float
  instance, serves the word-level program and the idealized one: from any memory every execution ends with each
  unscoped buffer at the fold of the three items over the launch memory, and no item writes an argument. The
  reference's frame is its run with the result dropped. The idealization rewrote nothing, so there is nothing to
  preserve. At the extended reals the kernel's result array and the reference's are one function of the arguments:
  x times the transpose of the masked weight matrix, plus the bias along every row — the kernel reaches it as four
  block products accumulated per output block, the reference as one contraction over 4096, and a sum over a range
  cut into consecutive blocks is the sum over the range.
-/
import proofs.«171092_j23046794510859_1_alg».proof.Defs
import proofs.«171092_j23046794510859_1_alg».proof.Proof.Gen.Kernel
import proofs.«171092_j23046794510859_1_alg».proof.Proof.Gen.KernelIdeal
import proofs.«171092_j23046794510859_1_alg».proof.Proof.Gen.ReferenceIdeal
import proofs.«171092_j23046794510859_1_alg».proof.Proof.Gen.Pre_finite_inputs
import proofs.«171092_j23046794510859_1_alg».proof.Proof.Gen.ReferenceIdeal.Run
import proofs.«171092_j23046794510859_1_alg».proof.Proof.Gen.ReferenceIdeal.Read
import proofs.«171092_j23046794510859_1_alg».proof.Proof.BitsMainRun
import proofs.«171092_j23046794510859_1_alg».proof.Proof.MainRun
import proofs.«171092_j23046794510859_1_alg».proof.Proof.KernelValue
import proofs.«171092_j23046794510859_1_alg».proof.Proof.RefValue

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) := fun m ρ _ =>
  (θ_run Cert.Kernel.defs _ _).mono (fun r h c =>
    ⟨(h c _ (Cert.Kernel.Hand.mem_uc Cert.Kernel.main_arg0 (by decide))).trans (Cert.Kernel.Hand.W4_main_arg0 m c),
      (h c _ (Cert.Kernel.Hand.mem_uc Cert.Kernel.main_arg1 (by decide))).trans (Cert.Kernel.Hand.W4_main_arg1 m c),
      (h c _ (Cert.Kernel.Hand.mem_uc Cert.Kernel.main_arg2 (by decide))).trans (Cert.Kernel.Hand.W4_main_arg2 m c),
      (h c _ (Cert.Kernel.Hand.mem_uc Cert.Kernel.main_arg3 (by decide))).trans (Cert.Kernel.Hand.W4_main_arg3 m c),
      (h c _ (Cert.Kernel.Hand.mem_uc Cert.Kernel.main_arg4 (by decide))).trans (Cert.Kernel.Hand.W4_main_arg4 m c)⟩)
    (Cert.Kernel.Hand.run_main (F := Bits) m ρ)

theorem frame_ki : Cert.frame_KernelIdeal (hKernelIdeal := Cert.KernelIdeal.Gen.facts) (hPre_finite_inputs := Cert.Pre_finite_inputs.Gen.facts) := fun m ρ _ =>
  (θ_run Cert.KernelIdeal.defs _ _).mono (fun r h c =>
    ⟨(h c _ (Cert.KernelIdeal.Hand.mem_uc Cert.KernelIdeal.main_arg0 (by decide))).trans (Cert.KernelIdeal.Hand.W4_main_arg0 m c),
      (h c _ (Cert.KernelIdeal.Hand.mem_uc Cert.KernelIdeal.main_arg1 (by decide))).trans (Cert.KernelIdeal.Hand.W4_main_arg1 m c),
      (h c _ (Cert.KernelIdeal.Hand.mem_uc Cert.KernelIdeal.main_arg2 (by decide))).trans (Cert.KernelIdeal.Hand.W4_main_arg2 m c),
      (h c _ (Cert.KernelIdeal.Hand.mem_uc Cert.KernelIdeal.main_arg3 (by decide))).trans (Cert.KernelIdeal.Hand.W4_main_arg3 m c),
      (h c _ (Cert.KernelIdeal.Hand.mem_uc Cert.KernelIdeal.main_arg4 (by decide))).trans (Cert.KernelIdeal.Hand.W4_main_arg4 m c)⟩)
    (Cert.KernelIdeal.Hand.run_main (F := Ideal) m ρ)

theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

/-- Both programs end with the specification's function of the (agreeing) arguments in their result arrays. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono (fun r h c =>
      ⟨(h c _ (Cert.KernelIdeal.Hand.mem_uc Cert.KernelIdeal.main_v2 (by decide))).trans (Cert.KernelIdeal.Hand.result_eq m c),
      (h c _ (Cert.KernelIdeal.Hand.mem_uc Cert.KernelIdeal.main_arg0 (by decide))).trans (Cert.KernelIdeal.Hand.W4_main_arg0 m c),
      (h c _ (Cert.KernelIdeal.Hand.mem_uc Cert.KernelIdeal.main_arg1 (by decide))).trans (Cert.KernelIdeal.Hand.W4_main_arg1 m c),
      (h c _ (Cert.KernelIdeal.Hand.mem_uc Cert.KernelIdeal.main_arg2 (by decide))).trans (Cert.KernelIdeal.Hand.W4_main_arg2 m c),
      (h c _ (Cert.KernelIdeal.Hand.mem_uc Cert.KernelIdeal.main_arg3 (by decide))).trans (Cert.KernelIdeal.Hand.W4_main_arg3 m c),
      (h c _ (Cert.KernelIdeal.Hand.mem_uc Cert.KernelIdeal.main_arg4 (by decide))).trans (Cert.KernelIdeal.Hand.W4_main_arg4 m c)⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v13_eq, Cert.ReferenceIdeal.RefValue.ref_is_G,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
